-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S10000x256 : Shape := ⟨2, ![10000, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_

variable [Facts]

def fn {F : FTy → Type} [FloatOps F] (main_arg0 : FVec F S16384x256 .f32) (main_arg1 : FVec F S10000x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  main_v8
-- ==== Kernel.lean ====
abbrev S16384x256 : Shape := ⟨2, ![16384, 256]⟩
abbrev S10000x256 : Shape := ⟨2, ![10000, 256]⟩
abbrev S_ : Shape := ⟨0, ![]⟩
abbrev S10240x256 : Shape := ⟨2, ![10240, 256]⟩
abbrev S16384x10240 : Shape := ⟨2, ![16384, 10240]⟩
abbrev S1024x256 : Shape := ⟨2, ![1024, 256]⟩
abbrev S1280x256 : Shape := ⟨2, ![1280, 256]⟩
abbrev S1024x1280 : Shape := ⟨2, ![1024, 1280]⟩
abbrev S1024 : Shape := ⟨1, ![1024]⟩
abbrev S1024x1 : Shape := ⟨2, ![1024, 1]⟩
abbrev S1280 : Shape := ⟨1, ![1280]⟩
abbrev S1280x1 : Shape := ⟨2, ![1280, 1]⟩
abbrev S16384x10000 : Shape := ⟨2, ![16384, 10000]⟩

abbrev nBuf : Space → Nat
  | .hbm => 7
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S10000x256, .f32⟩
  | .hbm, ⟨2, _⟩ => ⟨S_, .i32⟩
  | .hbm, ⟨3, _⟩ => ⟨S_, .f32⟩
  | .hbm, ⟨4, _⟩ => ⟨S10240x256, .f32⟩
  | .hbm, ⟨5, _⟩ => ⟨S16384x10240, .f32⟩
  | .hbm, ⟨6, _⟩ => ⟨S16384x10000, .f32⟩
  | .local _ .vmem, ⟨0, _⟩ => ⟨S1024x256, .f32⟩
  | .local _ .vmem, ⟨1, _⟩ => ⟨S1024x256, .f32⟩
  | .local _ .vmem, ⟨2, _⟩ => ⟨S1280x256, .f32⟩
  | .local _ .vmem, ⟨3, _⟩ => ⟨S1280x256, .f32⟩
  | .local _ .vmem, ⟨4, _⟩ => ⟨S1024x1280, .f32⟩
  | .local _ .vmem, ⟨5, _⟩ => ⟨S1024x1280, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S10000x256_S10240x256_02400_000 : S10000x256.Pads (![0, 0] : Fin 2 → Nat) ![240, 0] ![0, 0] S10240x256
  h_S_ : 0 < S_.numel
  inb_S1024x256_S1024x256_0_0 : ∀ a, (![0, 0] : Fin 2 → Nat) a + S1024x256.size a ≤ S1024x256.size a
  h_S1024x256 : 0 < S1024x256.numel
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  reduces_S1024x256_S1024 : S1024x256.Reduces [1] S1024
  shapeCasts_S1024_S1024x1 : S1024.ShapeCasts S1024x1
  reduces_S1280x256_S1280 : S1280x256.Reduces [1] S1280
  shapeCasts_S1280_S1280x1 : S1280.ShapeCasts S1280x1
  broadcasts_S1280x1_S1280x256 : S1280x1.Broadcasts S1280x256
  bitsLt_bf16_f32 : FTy.bits .bf16 < FTy.bits .f32
  broadcasts_S1024x1_S1024x1280 : S1024x1.Broadcasts S1024x1280
  inb_S1024x1280_S1024x1280_0_0 : ∀ a, (![0, 0] : Fin 2 → Nat) a + S1024x1280.size a ≤ S1024x1280.size a
  h_S1024x1280 : 0 < S1024x1280.numel
  slices_S16384x10240_S16384x10000_0_0 : S16384x10240.Slices ![0, 0] S16384x10000
  dot_S1024x256_S1280x256_S1024x1280_1_1_0_0_n_n_wf : DotDims.WF S1024x256 S1280x256 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S10240x256.size a
  hwx0_1 : ∀ i : grid0.Coords, EltTy.bits .f32 = 32 ∨ (Rect.block (s := S10240x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S16384x10240.size a
  hwx0_2 : ∀ i : grid0.Coords, EltTy.bits .f32 = 32 ∨ (Rect.block (s := S16384x10240) S1024x1280.size (cc0_transform_2 i) (hinb0_2 i)).WholeWords (EltTy.packing .f32)

variable [Facts₀]

def dot_S1024x256_S1280x256_S1024x1280_1_1_0_0_n_n : DotDims S1024x256 S1280x256 S1024x1280 where
  lhsContracting := [1]
  rhsContracting := [1]
  lhsNonContracting := [0]
  rhsNonContracting := [0]
  lhsBatch := []
  rhsBatch := []
  wf := dot_S1024x256_S1280x256_S1024x1280_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S10000x256 : Shape := ⟨2, ![10000, 256]⟩
abbrev S256x10000 : Shape := ⟨2, ![256, 10000]⟩
abbrev S16384x10000 : Shape := ⟨2, ![16384, 10000]⟩
abbrev S_ : Shape := ⟨0, ![]⟩
abbrev S16384 : Shape := ⟨1, ![16384]⟩
abbrev S10000 : Shape := ⟨1, ![10000]⟩
abbrev S16384x1 : Shape := ⟨2, ![16384, 1]⟩
abbrev S1x10000 : Shape := ⟨2, ![1, 10000]⟩

abbrev nBuf : Space → Nat
  | .hbm => 24
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S10000x256, .f32⟩
  | .hbm, ⟨2, _⟩ => ⟨S256x10000, .f32⟩
  | .hbm, ⟨3, _⟩ => ⟨S16384x10000, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S10000x256, .f32⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S16384x1, .f32⟩
  | .hbm, ⟨19, _⟩ => ⟨S1x10000, .f32⟩
  | .hbm, ⟨20, _⟩ => ⟨S16384x10000, .f32⟩
  | .hbm, ⟨21, _⟩ => ⟨S16384x10000, .f32⟩
  | .hbm, ⟨22, _⟩ => ⟨S16384x10000, .f32⟩
  | .hbm, ⟨23, _⟩ => ⟨S16384x10000, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  transposes_S10000x256_S256x10000_1_0 : S10000x256.Transposes [1, 0] S256x10000
  reducesTo_S16384x256_S16384_d1 : S16384x256.ReducesTo [1] S16384
  h_S_ : 0 < S_.numel
  bcast_S_S16384 : S_.BroadcastsInDim S16384 (![] : Fin 0 → Fin S16384.rank)
  reducesTo_S10000x256_S10000_d1 : S10000x256.ReducesTo [1] S10000
  bcast_S_S10000 : S_.BroadcastsInDim S10000 (![] : Fin 0 → Fin S10000.rank)
  bcast_S16384_S16384x1_0 : S16384.BroadcastsInDim S16384x1 (![0] : Fin 1 → Fin S16384x1.rank)
  bcast_S10000_S1x10000_1 : S10000.BroadcastsInDim S1x10000 (![1] : Fin 1 → Fin S1x10000.rank)
  bcast_S16384x1_S16384x10000_0_1 : S16384x1.BroadcastsInDim S16384x10000 (![0, 1] : Fin 2 → Fin S16384x10000.rank)
  bcast_S1x10000_S16384x10000_0_1 : S1x10000.BroadcastsInDim S16384x10000 (![0, 1] : Fin 2 → Fin S16384x10000.rank)
  dot_S16384x256_S256x10000_S16384x10000_1_0_0_1_n_n_wf : DotDims.WF S16384x256 S256x10000 S16384x10000 [1] [0] [0] [1] [] []

variable [Facts₀]

def dot_S16384x256_S256x10000_S16384x10000_1_0_0_1_n_n : DotDims S16384x256 S256x10000 S16384x10000 where
  lhsContracting := [1]
  rhsContracting := [0]
  lhsNonContracting := [0]
  rhsNonContracting := [1]
  lhsBatch := []
  rhsBatch := []
  wf := dot_S16384x256_S256x10000_S16384x10000_1_0_0_1_n_n_wf

class Facts : Prop extends Facts₀ where

variable [Facts]
-- ==== Proof.FiniteEntries.lean ====
/-
  What the precondition says: every entry of both argument arrays is a real number.

  The precondition is the conjunction of two tests, one per array, each "for all entries, |x| < +∞", where +∞ is the
  value of the binary32 word `0x7F800000`, the top of the extended reals. On the extended reals `|x| = max x (−x)` is
  `⊤` exactly at `x = ⊥` and `x = ⊤`, so the strict inequality leaves the real numbers.
-/
import proofs.«140637_j56495999812266_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.FiniteEntries

open Idealize.ShloMosaic Cert.Pre_finite_inputs

/-- The rank-0 shape has one index. -/
instance : Subsingleton S_.Idx := ⟨fun a b => funext fun d => d.elim0⟩

/-- The binary32 word `0x7F800000` denotes `⊤`. -/
theorem inf_eq : Ideal.ofBits .f32 0x7F800000#32 = ⊤ := by simp [Ideal.ofBits, Ideal.ieee]

/-- An extended real whose absolute value is strictly below `⊤` is a real number. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | top => simp [Ideal.cmp] at h
  | coe r => exact ⟨r, rfl⟩

/-- Under the precondition every entry of the first array and every entry of the second is a real number. -/
theorem real_of_pre [Facts] (X : FVec Ideal S16384x256 .f32) (P : FVec Ideal S10000x256 .f32)
    (h : fn (F := Ideal) X P = fun _ => 1#1) :
    (∀ i, ∃ r : ℝ, X i = (r : EReal)) ∧ (∀ i, ∃ r : ℝ, P i = (r : EReal)) := by
  have h0 := congrFun h ValueIdx.ix0
  dsimp only [fn] at h0
  have h1 : IntOp.andi _ _ = 1#1 := h0
  obtain ⟨hx, hp⟩ := IntOp.andi_eq_one.1 h1
  refine ⟨fun i => ?_, fun i => ?_⟩
  · have hi := Host.reduce_andi_all _ _ _ _ _ hx i
    exact real_of_abs_lt (X i) hi
  · have hi := Host.reduce_andi_all _ _ _ _ _ hp i
    exact real_of_abs_lt (P i) hi

end Cert.Pre_finite_inputs.FiniteEntries

end
-- ==== Proof.CosineLaw.lean ====
/-
  Cosine similarity of two rows of length 256 over the extended reals, in the two arrangements the programs use,
  and the law that joins them.

  For a row `v` write `nrm v = max (√(∑ d, v d · v d)) ε`, where `ε` is the value of the binary32 word
  `0x358637BD` (the clamp both programs apply to a norm; it is `8796093 · 2⁻⁴³`, a positive real).
  The kernel first divides the second row by its norm, contracts, and divides the sum by the first row's norm:
      cosK u v = (∑ d, u d · (v d / nrm v)) / nrm u .
  The reference contracts the raw rows and divides once by the product of the norms:
      cosR u v = (∑ d, u d · v d) / (nrm u · nrm v) .
  Pulling the factor `1 / nrm v` out of the sum is distributivity, which fails on the extended reals at the
  infinities; it holds when every entry is a real number, and then both norms are positive reals, so
  `cosK u v = cosR u v` is an identity of the field ℝ.
-/
import Idealize.ShloMosaic.PureOps.Ideal
import Idealize.ShloMosaic.PureOps.Ideal.Laws

noncomputable section

namespace Cert.Cosine

open Idealize.ShloMosaic
open scoped BigOperators

/-- The clamp: the extended real the binary32 word `0x358637BD` denotes. -/
abbrev eps : EReal := Ideal.ofBits .f32 0x358637BD#32

/-- It is the real number `8796093 · 2⁻⁴³` (sign 0, biased exponent 107, significand `2²³ + 407485`). -/
theorem eps_eq : eps = (((8796093 : ℝ) * (2 : ℝ) ^ (-43 : ℤ) : ℝ) : EReal) := by
  simp [eps, Ideal.ofBits, Ideal.ieee, -EReal.coe_mul]

/-- The clamp as a real number. -/
def epsR : ℝ := (8796093 : ℝ) * (2 : ℝ) ^ (-43 : ℤ)

theorem epsR_pos : 0 < epsR := by unfold epsR; positivity

theorem eps_coe : eps = (epsR : EReal) := eps_eq

/-- A row's clamped Euclidean norm. -/
def nrm (v : Fin 256 → EReal) : EReal := max (Ideal.sqrt (∑ d, v d * v d)) eps

/-- The kernel's arrangement: normalise the second row, contract, divide by the first row's norm. -/
def cosK (u v : Fin 256 → EReal) : EReal := Ideal.div (∑ d, u d * Ideal.div (v d) (nrm v)) (nrm u)

/-- The reference's arrangement: contract, divide by the product of the norms. -/
def cosR (u v : Fin 256 → EReal) : EReal := Ideal.div (∑ d, u d * v d) (nrm u * nrm v)

/-- A finite sum of real numbers, each read as an extended real, is the real sum read as an extended real. -/
theorem coe_sum (f : Fin 256 → ℝ) : (∑ d, ((f d : ℝ) : EReal)) = ((∑ d, f d : ℝ) : EReal) := by
  induction (Finset.univ : Finset (Fin 256)) using Finset.induction_on with
  | empty => simp
  | insert a s ha ih => rw [Finset.sum_insert ha, Finset.sum_insert ha, ih, EReal.coe_add]

/-- The norm of a row of real numbers is a positive real number. -/
theorem nrm_coe (v : Fin 256 → ℝ) : ∃ r : ℝ, 0 < r ∧ nrm (fun d => ((v d : ℝ) : EReal)) = (r : EReal) := by
  refine ⟨max (Real.sqrt (∑ d, v d * v d)) epsR, lt_max_of_lt_right epsR_pos, ?_⟩
  unfold nrm
  have hs : (∑ d, ((v d : ℝ) : EReal) * ((v d : ℝ) : EReal)) = ((∑ d, v d * v d : ℝ) : EReal) := by
    rw [← coe_sum]; exact Finset.sum_congr rfl fun d _ => (EReal.coe_mul _ _).symm
  have hnn : ¬ (∑ d, v d * v d : ℝ) < 0 := not_lt.mpr (Finset.sum_nonneg fun d _ => mul_self_nonneg (v d))
  rw [hs, Ideal.sqrt_coe, if_neg hnn, eps_coe]
  exact (EReal.coe_strictMono.monotone.map_max).symm

/-- On rows of real numbers the two arrangements agree. -/
theorem cosK_eq_cosR (u v : Fin 256 → EReal) (hu : ∀ d, ∃ r : ℝ, u d = (r : EReal)) (hv : ∀ d, ∃ r : ℝ, v d = (r : EReal)) :
    cosK u v = cosR u v := by
  choose u' hu' using hu
  choose v' hv' using hv
  obtain rfl : u = fun d => ((u' d : ℝ) : EReal) := funext hu'
  obtain rfl : v = fun d => ((v' d : ℝ) : EReal) := funext hv'
  obtain ⟨a, ha, hna⟩ := nrm_coe u'
  obtain ⟨b, hb, hnb⟩ := nrm_coe v'
  unfold cosK cosR
  rw [hna, hnb]
  have hK : (∑ d, ((u' d : ℝ) : EReal) * Ideal.div ((v' d : ℝ) : EReal) (b : EReal)) = ((∑ d, u' d * (v' d * (1 / b)) : ℝ) : EReal) := by
    rw [← coe_sum]
    refine Finset.sum_congr rfl fun d _ => ?_
    rw [Ideal.div_coe hb.ne', ← EReal.coe_mul, ← EReal.coe_mul]
  have hR : (∑ d, ((u' d : ℝ) : EReal) * ((v' d : ℝ) : EReal)) = ((∑ d, u' d * v' d : ℝ) : EReal) := by
    rw [← coe_sum]; exact Finset.sum_congr rfl fun d _ => (EReal.coe_mul _ _).symm
  rw [hK, hR, ← EReal.coe_mul, Ideal.div_coe ha.ne', Ideal.div_coe (mul_pos ha hb).ne', ← EReal.coe_mul, ← EReal.coe_mul]
  congr 1
  have : (∑ d, u' d * (v' d * (1 / b))) = (∑ d, u' d * v' d) * (1 / b) := by
    rw [Finset.sum_mul]; exact Finset.sum_congr rfl fun d _ => by ring
  rw [this]
  field_simp

end Cert.Cosine

end
-- ==== Proof.KernelCosine.lean ====
/-
  The kernel body's value, read at an index of the output block: for input blocks `x0` (1024 rows of length 256)
  and `x1` (1280 rows of length 256), entry (r, q) of what the body stores is the cosine, in the kernel's
  arrangement (`Cert.Cosine.cosK`), of row r of `x0` and row q of `x1`.

  The pieces: a row's sum of squares (a lane reduction along the second axis, kept as a column), its square root
  clamped below by ε, is `nrm` of that row; the column broadcast along the other axis reads the row's own norm; the
  change of format before the product is the identity on the extended reals; and the product into a zero
  accumulator, contracting the second axis of both operands, is the plain sum over the 256 coordinates.
-/
import proofs.«140637_j56495999812266_1_alg».proof.Proof.Gen.KernelIdeal.Skeleton
import proofs.«140637_j56495999812266_1_alg».proof.Proof.CosineLaw
import Idealize.ShloMosaic.Lib.Pipeline.Value
import Idealize.ShloMosaic.Lib.ValueIdx
import Idealize.ShloMosaic.PureOps.Ideal.Laws

noncomputable section

namespace Cert.KernelIdeal.KernelCosine

open Cert.KernelIdeal Cert.KernelIdeal.Gen
open Idealize.ShloMosaic Idealize.ShloMosaic.ValueIdx Cert.Cosine
open scoped BigOperators

/-! ## A row's clamped norm, as a column -/

/-- The 1024-row block's norms as a column: the lane sum of the squares, kept as a [1024, 1] column, square-rooted
    and clamped. -/
def xcol (x0 : FVec Ideal S1024x256 .f32) : FVec Ideal S1024x1 .f32 :=
  maximumf (sqrt (shapeCast S1024x1 (multiReduction .add [1] S1024 (mulf x0 x0) 0x00000000#32 reduces_S1024x256_S1024 (.inl rfl) rfl) shapeCasts_S1024_S1024x1))
    (broadcast S1024x1 (Scalar.ofBits .f32 0x358637BD#32))

/-- The 1280-row block's norms as a column. -/
def pcol (x1 : FVec Ideal S1280x256 .f32) : FVec Ideal S1280x1 .f32 :=
  maximumf (sqrt (shapeCast S1280x1 (multiReduction .add [1] S1280 (mulf x1 x1) 0x00000000#32 reduces_S1280x256_S1280 (.inl rfl) rfl) shapeCasts_S1280_S1280x1))
    (broadcast S1280x1 (Scalar.ofBits .f32 0x358637BD#32))

/-- Row r of the first column is `nrm` of row r. -/
theorem xcol_apply (x0 : FVec Ideal S1024x256 .f32) (r : Fin 1024) (z : Fin 1) :
    xcol x0 (ix2 r z) = nrm (fun d => x0 (ix2 r d)) := by
  unfold xcol nrm
  show max (Ideal.sqrt (shapeCast S1024x1 _ shapeCasts_S1024_S1024x1 (ix2 r z))) eps = _
  refine congrArg (fun s => max (Ideal.sqrt s) eps) ?_
  refine (shapeCast_apply _ shapeCasts_S1024_S1024x1 (ix2 r z) (ix1 r) (by
    rw [Shape.rowMajor_val_one, Shape.rowMajor_val_two]
    have hz : z.val = 0 := by omega
    show r.val = r.val * 1 + z.val
    omega)).trans ?_
  refine (Ideal.multiReduction_add_single (mulf x0 x0) 0x00000000#32 reduces_S1024x256_S1024 (.inl rfl) rfl (ix1 r)).trans ?_
  refine Finset.sum_congr rfl fun k _ => ?_
  have e : reduces_S1024x256_S1024.lift (ix1 r) k = ix2 r k :=
    funext fun a => Fin.ext (by match a with | ⟨0, _⟩ => rfl | ⟨1, _⟩ => rfl)
  show x0 _ * x0 _ = _
  rw [e]
  rfl

/-- Row q of the second column is `nrm` of row q. -/
theorem pcol_apply (x1 : FVec Ideal S1280x256 .f32) (q : Fin 1280) (z : Fin 1) :
    pcol x1 (ix2 q z) = nrm (fun d => x1 (ix2 q d)) := by
  unfold pcol nrm
  show max (Ideal.sqrt (shapeCast S1280x1 _ shapeCasts_S1280_S1280x1 (ix2 q z))) eps = _
  refine congrArg (fun s => max (Ideal.sqrt s) eps) ?_
  refine (shapeCast_apply _ shapeCasts_S1280_S1280x1 (ix2 q z) (ix1 q) (by
    rw [Shape.rowMajor_val_one, Shape.rowMajor_val_two]
    have hz : z.val = 0 := by omega
    show q.val = q.val * 1 + z.val
    omega)).trans ?_
  refine (Ideal.multiReduction_add_single (mulf x1 x1) 0x00000000#32 reduces_S1280x256_S1280 (.inl rfl) rfl (ix1 q)).trans ?_
  refine Finset.sum_congr rfl fun k _ => ?_
  have e : reduces_S1280x256_S1280.lift (ix1 q) k = ix2 q k :=
    funext fun a => Fin.ext (by match a with | ⟨0, _⟩ => rfl | ⟨1, _⟩ => rfl)
  show x1 _ * x1 _ = _
  rw [e]
  rfl

/-- A [1024, 1] column broadcast to [1024, 1280] reads, at (r, q), the column's row r. -/
theorem bcast_x_apply (col : FVec Ideal S1024x1 .f32) (r : Fin 1024) (q : Fin 1280) :
    broadcastTo S1024x1280 col broadcasts_S1024x1_S1024x1280 (ix2 r q) = col (ix2 r (0 : Fin 1)) :=
  broadcastTo_apply col broadcasts_S1024x1_S1024x1280 (ix2 r q) (ix2 r (0 : Fin 1)) (fun a => by
    match a with
    | ⟨0, _⟩ => show r.val = if (1024 : Nat) = 1 then 0 else r.val; rw [if_neg (by decide)]
    | ⟨1, _⟩ => show 0 = if (1 : Nat) = 1 then 0 else q.val; rw [if_pos rfl])

/-- A [1280, 1] column broadcast to [1280, 256] reads, at (q, k), the column's row q. -/
theorem bcast_p_apply (col : FVec Ideal S1280x1 .f32) (q : Fin 1280) (k : Fin 256) :
    broadcastTo S1280x256 col broadcasts_S1280x1_S1280x256 (ix2 q k) = col (ix2 q (0 : Fin 1)) :=
  broadcastTo_apply col broadcasts_S1280x1_S1280x256 (ix2 q k) (ix2 q (0 : Fin 1)) (fun a => by
    match a with
    | ⟨0, _⟩ => show q.val = if (1280 : Nat) = 1 then 0 else q.val; rw [if_neg (by decide)]
    | ⟨1, _⟩ => show 0 = if (1 : Nat) = 1 then 0 else k.val; rw [if_pos rfl])

/-! ## The product, contracting the second axis of both operands -/

theorem lhs_axis0 (i : S1024x1280.Idx) (s : dot_S1024x256_S1280x256_S1024x1280_1_1_0_0_n_n.contr.Idx) :
    (dot_S1024x256_S1280x256_S1024x1280_1_1_0_0_n_n.lhsIdx i s 0).val = (i 0).val := by
  unfold DotDims.lhsIdx
  rw [dif_neg (show ¬(0 : Fin S1024x256.rank) ∈ dot_S1024x256_S1280x256_S1024x1280_1_1_0_0_n_n.lhsBatch by decide), dif_pos (show (0 : Fin S1024x256.rank) ∈ dot_S1024x256_S1280x256_S1024x1280_1_1_0_0_n_n.lhsNonContracting by decide)]
  rfl
theorem lhs_axis1 (i : S1024x1280.Idx) (s : dot_S1024x256_S1280x256_S1024x1280_1_1_0_0_n_n.contr.Idx) :
    (dot_S1024x256_S1280x256_S1024x1280_1_1_0_0_n_n.lhsIdx i s 1).val = (s ⟨0, by decide⟩).val :=
  dot_S1024x256_S1280x256_S1024x1280_1_1_0_0_n_n.lhsIdx_val_of_single rfl i s
theorem rhs_axis0 (i : S1024x1280.Idx) (s : dot_S1024x256_S1280x256_S1024x1280_1_1_0_0_n_n.contr.Idx) :
    (dot_S1024x256_S1280x256_S1024x1280_1_1_0_0_n_n.rhsIdx i s 0).val = (i 1).val := by
  unfold DotDims.rhsIdx
  rw [dif_neg (show ¬(0 : Fin S1280x256.rank) ∈ dot_S1024x256_S1280x256_S1024x1280_1_1_0_0_n_n.rhsBatch by decide), dif_pos (show (0 : Fin S1280x256.rank) ∈ dot_S1024x256_S1280x256_S1024x1280_1_1_0_0_n_n.rhsNonContracting by decide)]
  rfl
theorem rhs_axis1 (i : S1024x1280.Idx) (s : dot_S1024x256_S1280x256_S1024x1280_1_1_0_0_n_n.contr.Idx) :
    (dot_S1024x256_S1280x256_S1024x1280_1_1_0_0_n_n.rhsIdx i s 1).val = (s ⟨0, by decide⟩).val :=
  dot_S1024x256_S1280x256_S1024x1280_1_1_0_0_n_n.rhsIdx_val_of_single rfl i s

/-- Into the zero accumulator, entry (r, q) of the product is `∑ k, l (r, k) · w (q, k)`. -/
theorem matmul_apply (l : FVec Ideal S1024x256 .bf16) (w : FVec Ideal S1280x256 .bf16) (r : Fin 1024) (q : Fin 1280) :
    matmul dot_S1024x256_S1280x256_S1024x1280_1_1_0_0_n_n none l w (constant S1024x1280 .f32 0x00000000#32) (ix2 r q)
      = ∑ k : Fin 256, l (ix2 r k) * w (ix2 q k) := by
  simp only [matmul]
  rw [Ideal.matmul_constant_zero_apply, ← Equiv.sum_comp (ValueIdx.contrEquiv1 dot_S1024x256_S1280x256_S1024x1280_1_1_0_0_n_n 256 rfl rfl).symm]
  refine Finset.sum_congr rfl fun k _ => ?_
  have hk := ValueIdx.contrEquiv1_symm_val dot_S1024x256_S1280x256_S1024x1280_1_1_0_0_n_n 256 rfl rfl k
  have el : dot_S1024x256_S1280x256_S1024x1280_1_1_0_0_n_n.lhsIdx (ix2 r q) ((ValueIdx.contrEquiv1 dot_S1024x256_S1280x256_S1024x1280_1_1_0_0_n_n 256 rfl rfl).symm k) = ix2 r k := funext fun a => Fin.ext (by
    match a with
    | ⟨0, _⟩ => exact lhs_axis0 _ _
    | ⟨1, _⟩ => exact (lhs_axis1 _ _).trans hk)
  have er : dot_S1024x256_S1280x256_S1024x1280_1_1_0_0_n_n.rhsIdx (ix2 r q) ((ValueIdx.contrEquiv1 dot_S1024x256_S1280x256_S1024x1280_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The body's value -/

/-- The body's stored value is the quotient, by the first block's broadcast norms, of the product of the first block
    with the second block divided row by row by its own norms. -/
theorem payload_eq (x0 : Vec Ideal S1024x256 .f32) (x1 : Vec Ideal S1280x256 .f32) :
    k0_pay1 (F := Ideal) x0 x1
      = divf (matmul dot_S1024x256_S1280x256_S1024x1280_1_1_0_0_n_n none (truncf .bf16 x0 bitsLt_bf16_f32)
            (truncf .bf16 (divf x1 (broadcastTo S1280x256 (pcol x1) broadcasts_S1280x1_S1280x256)) bitsLt_bf16_f32)
            (constant S1024x1280 .f32 0x00000000#32))
          (broadcastTo S1024x1280 (xcol x0) broadcasts_S1024x1_S1024x1280) := by
  unfold k0_pay1 xcol pcol
  simp only [shapeCast_self]

/-- Entry (r, q) of the body's stored value is `cosK` of row r of the first block and row q of the second. -/
theorem payload_apply (x0 : Vec Ideal S1024x256 .f32) (x1 : Vec Ideal S1280x256 .f32) (r : Fin 1024) (q : Fin 1280) :
    k0_pay1 (F := Ideal) x0 x1 (ix2 r q) = cosK (fun d => x0 (ix2 r d)) (fun d => x1 (ix2 q d)) := by
  rw [payload_eq]
  unfold cosK
  show Ideal.div _ _ = Ideal.div _ _
  refine congrArg₂ Ideal.div ?_ ?_
  · refine (matmul_apply _ _ r q).trans ?_
    refine Finset.sum_congr rfl fun k _ => ?_
    show x0 (ix2 r k) * Ideal.div (x1 (ix2 q k)) (broadcastTo S1280x256 (pcol x1) broadcasts_S1280x1_S1280x256 (ix2 q k)) = _
    rw [bcast_p_apply, pcol_apply]
  · rw [bcast_x_apply, xcol_apply]

end Cert.KernelIdeal.KernelCosine

end
-- ==== Proof.ArrayCosine.lean ====
/-
  The kernel's output array after the run, as one function of the arrays the region finds.

  The grid has 16 × 8 points; point (i, j) reads rows [1024 i, 1024 i + 1024) of the first array and rows
  [1280 j, 1280 j + 1280) of the second (all 256 columns of each), and writes back the block of the [16384, 10240]
  output at rows [1024 i, …) and columns [1280 j, …). Entry (r, q) of what it writes is `cosK` of row r of its first
  block and row q of its second, that is, of row 1024 i + r of the first array and row 1280 j + q of the second: the
  block is the restriction of ONE whole-array function, `Gpad`. The 128 blocks tile the output, so the array ends
  holding `Gpad` of the two arrays.
-/
import proofs.«140637_j56495999812266_1_alg».proof.Proof.Gen.KernelIdeal.Frame
import proofs.«140637_j56495999812266_1_alg».proof.Proof.KernelCosine
import Idealize.ShloMosaic.Lib.Pipeline.Value
import Idealize.ShloMosaic.Lib.ValueIdx

set_option maxRecDepth 16384

noncomputable section

namespace Cert.KernelIdeal.ArrayCosine

open Cert.KernelIdeal Cert.KernelIdeal.Gen Cert.KernelIdeal.KernelCosine
open Idealize.ShloMosaic Idealize.ShloMosaic.TcCoe Idealize.ShloMosaic.ValueIdx Idealize.SL.Sem Cert.Cosine
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Entry (n, c) of the padded output: `cosK` of row n of the first array and row c of the padded second array. -/
def Gpad (X : S16384x256.Idx → EReal) (Pp : S10240x256.Idx → EReal) : S16384x10240.Idx → EReal :=
  fun i => cosK (fun d => X (ix2 (⟨(i 0).val, (i 0).isLt⟩ : Fin 16384) d)) (fun d => Pp (ix2 (⟨(i 1).val, (i 1).isLt⟩ : Fin 10240) d))

/-- The index maps over the grid: the first input moves with the output's row block and stays at column block 0; the
    second input's row block is the output's column block, column block 0; and the output's block indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 7 :=
  (by decide +kernel : ∀ t : Fin grid0.N, _)

/-- Every block of the output is some point's. -/
theorem idx_onto : ∀ (a : Fin 16) (b : Fin 8), ∃ t : Fin cfg0.N, win0_2.index t = ![a.val, b.val] :=
  (by decide +kernel : ∀ (a : Fin 16) (b : Fin 8), ∃ t : Fin grid0.N, win0_2.index t = ![a.val, b.val])

/-- Row r, column d of the first input's block at point t is the first array at the output block's row r, column d. -/
theorem xblk_apply (c : Dev nD) (t : Fin cfg0.N) (r : Fin 1024) (q : Fin 1280) (d : Fin 256) :
    iblk m c 0 t (ix2 r d)
      = V m c main_arg0 (ix2 (⟨(((cfg0.win 2).blk t).view.emb (ix2 r q) 0).val, (((cfg0.win 2).blk t).view.emb (ix2 r q) 0).isLt⟩ : Fin 16384) d) := by
  obtain ⟨e0, e1, e2, e3, e4, e5⟩ := idx_facts t
  show V m c main_arg0 (((cfg0.win 0).blk t).view.emb (ix2 r d)) = V m c main_arg0 _
  refine congrArg (V m c main_arg0) (funext fun a => Fin.ext ?_)
  match a with
  | ⟨0, _⟩ => show win0_0.index t (0 : Fin 2) * 1024 + 1 * r.val = win0_2.index t (0 : Fin 2) * 1024 + 1 * r.val; omega
  | ⟨1, _⟩ => show win0_0.index t (1 : Fin 2) * 256 + 1 * d.val = d.val; omega

/-- Row q, column d of the second input's block at point t is the second array at the output block's column q, column d. -/
theorem pblk_apply (c : Dev nD) (t : Fin cfg0.N) (r : Fin 1024) (q : Fin 1280) (d : Fin 256) :
    iblk m c 1 t (ix2 q d)
      = V m c main_v0 (ix2 (⟨(((cfg0.win 2).blk t).view.emb (ix2 r q) 1).val, (((cfg0.win 2).blk t).view.emb (ix2 r q) 1).isLt⟩ : Fin 10240) d) := by
  obtain ⟨e0, e1, e2, e3, e4, e5⟩ := idx_facts t
  show V m c main_v0 (((cfg0.win 1).blk t).view.emb (ix2 q d)) = V m c main_v0 _
  refine congrArg (V m c main_v0) (funext fun a => Fin.ext ?_)
  match a with
  | ⟨0, _⟩ => show win0_1.index t (0 : Fin 2) * 1280 + 1 * q.val = win0_2.index t (1 : Fin 2) * 1280 + 1 * q.val; omega
  | ⟨1, _⟩ => show win0_1.index t (1 : Fin 2) * 256 + 1 * d.val = d.val; omega

/-- What point t writes back is block t of `Gpad` of the arrays as the region finds them. -/
theorem flushed_eq (c : Dev nD) (t : Fin cfg0.N) :
    (dats m 0 c).flushed 2 t = ((cfg0.win 2).blk t).view.read (Elt Ideal) (Gpad (V m c main_arg0) (V m c main_v0)) := by
  show (cfg0.win 2).cut (grid0.coords t) ((dats m 0 c).after 2 t) = _
  rw [after0_2]
  unfold out0_2
  rw [View.canon_unit_zero hz]
  simp only [View.ld_unit_zero (S := S1024x256) hz, View.ld_unit_zero (S := S1280x256) hz]
  funext j
  obtain ⟨r, q, rfl⟩ : ∃ (r : Fin 1024) (q : Fin 1280), j = ix2 r q := ⟨j 0, j 1, eq_ix2 j⟩
  show k0_pay1 (F := Ideal) (iblk m c 0 t) (iblk m c 1 t) (ix2 r q) = Gpad (V m c main_arg0) (V m c main_v0) (((cfg0.win 2).blk t).view.emb (ix2 r q))
  refine (payload_apply (iblk m c 0 t) (iblk m c 1 t) r q).trans ?_
  unfold Gpad
  refine congrArg₂ cosK (funext fun d => ?_) (funext fun d => ?_)
  · exact xblk_apply m c t r q d
  · exact pblk_apply m c t r q d

/-- An index of the output is in point t's block iff each coordinate is in the block's range on its axis. -/
theorem mem_blk (t : Fin cfg0.N) (i : S16384x10240.Idx) :
    i ∈ ((cfg0.win 2).blk t).view.set ↔ ∀ a : Fin 2, win0_2.index t a * S1024x1280.size a ≤ (i a).val ∧ (i a).val < win0_2.index t a * S1024x1280.size a + S1024x1280.size a := by
  show i ∈ ((View.whole main_v1).slice (win0_2.rect t)).set ↔ _
  rw [View.set_slice_whole, Rect.mem_set_unit]
  exact Iff.rfl

/-- The blocks tile the output: index (n, c) is in the block of the point with block indices (n / 1024, c / 1280). -/
theorem cover (i : S16384x10240.Idx) : ∃ t : Fin cfg0.N, (cfg0.win 2).flush t = true ∧ i ∈ ((cfg0.win 2).blk t).view.set := by
  have hi0 : (i 0).val < 16384 := (i 0).isLt
  have hi1 : (i 1).val < 10240 := (i 1).isLt
  obtain ⟨t, ht⟩ := idx_onto ⟨(i 0).val / 1024, by omega⟩ ⟨(i 1).val / 1280, by omega⟩
  have q0 : win0_2.index t (0 : Fin 2) = (i 0).val / 1024 := congrFun ht 0
  have q1 : win0_2.index t (1 : Fin 2) = (i 1).val / 1280 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1280 ≤ (i 1).val ∧ (i 1).val < win0_2.index t (1 : Fin 2) * 1280 + 1280; omega

/-- The output array after the run is `Gpad` of the first array and the padded second array. -/
theorem final (c : Dev nD) : (dats m 0 c).arrAt 2 cfg0.N = Gpad (V m c main_arg0) (V m c main_v0) :=
  (dats m 0 c).arrAt_eq_of_cover 2 (Gpad (V m c main_arg0) (V m c main_v0)) (fun t _ => flushed_eq m c t) cover

end Cert.KernelIdeal.ArrayCosine

end
-- ==== Proof.CosineArrays.lean ====
/-
  The [16384, 10000] array of cosines of every row of a [16384, 256] array against every row of a [10000, 256]
  array, in the kernel's arrangement (`arrK`) and in the reference's (`arrR`); they are one array when every entry
  of both arguments is a real number (`Cert.Cosine.cosK_eq_cosR`, entry by entry).
-/
import proofs.«140637_j56495999812266_1_alg».proof.Proof.CosineLaw
import Idealize.ShloMosaic.Lib.ValueIdx

noncomputable section

namespace Cert.Cosine

open Idealize.ShloMosaic Idealize.ShloMosaic.ValueIdx

/-- Entry (n, c): `cosK` of row n of `X` and row c of `P`. -/
def arrK (X : (⟨2, ![16384, 256]⟩ : Shape).Idx → EReal) (P : (⟨2, ![10000, 256]⟩ : Shape).Idx → EReal) :
    (⟨2, ![16384, 10000]⟩ : Shape).Idx → EReal :=
  fun i => cosK (fun d => X (ix2 (⟨(i 0).val, (i 0).isLt⟩ : Fin 16384) d)) (fun d => P (ix2 (⟨(i 1).val, (i 1).isLt⟩ : Fin 10000) d))

/-- Entry (n, c): `cosR` of row n of `X` and row c of `P`. -/
def arrR (X : (⟨2, ![16384, 256]⟩ : Shape).Idx → EReal) (P : (⟨2, ![10000, 256]⟩ : Shape).Idx → EReal) :
    (⟨2, ![16384, 10000]⟩ : Shape).Idx → EReal :=
  fun i => cosR (fun d => X (ix2 (⟨(i 0).val, (i 0).isLt⟩ : Fin 16384) d)) (fun d => P (ix2 (⟨(i 1).val, (i 1).isLt⟩ : Fin 10000) d))

/-- On arrays of real numbers the two arrangements give one array. -/
theorem arrK_eq_arrR (X : (⟨2, ![16384, 256]⟩ : Shape).Idx → EReal) (P : (⟨2, ![10000, 256]⟩ : Shape).Idx → EReal)
    (hX : ∀ i, ∃ r : ℝ, X i = (r : EReal)) (hP : ∀ i, ∃ r : ℝ, P i = (r : EReal)) : arrK X P = arrR X P :=
  funext fun i => cosK_eq_cosR _ _ (fun d => hX _) (fun d => hP _)

end Cert.Cosine

end
-- ==== Proof.ResultCosine.lean ====
/-
  The kernel program's result, as one function of its two arguments.

  Before the region the second argument is padded below with 240 rows (to 10240 rows); rows 0 … 9999 of the padded
  array are the argument's rows. After the region the result is the leading [16384, 10000] corner of the region's
  [16384, 10240] output. So entry (n, c) of the result, c < 10000, is `cosK` of row n of the first argument and row
  c of the second: the array `Cert.Cosine.arrK` of the arguments. The padded rows only reach the columns the corner
  leaves out.
-/
import proofs.«140637_j56495999812266_1_alg».proof.Proof.Gen.KernelIdeal.Frame
import proofs.«140637_j56495999812266_1_alg».proof.Proof.ArrayCosine
import proofs.«140637_j56495999812266_1_alg».proof.Proof.CosineArrays
import Idealize.ShloMosaic.Lib.StableHlo.Run
import Idealize.ShloMosaic.Lib.KernelVsHost

set_option maxRecDepth 16384

noncomputable section

namespace Cert.KernelIdeal.ResultCosine

open Cert.KernelIdeal Cert.KernelIdeal.Gen Cert.KernelIdeal.ArrayCosine
open Idealize.ShloMosaic Idealize.ShloMosaic.TcCoe Idealize.ShloMosaic.ValueIdx Idealize.SL.Sem Cert.Cosine
open Idealize.ShloMosaic.StableHlo

variable (m : (ℓ : Loc nD τ sig) → Buf (Elt Ideal) ℓ) (ρ : Dev nD → PrngReg)

/-- The array the region's second window reads is the second argument padded below with 240 rows of the padding value. -/
theorem padded_eq (c : Dev nD) :
    (V m c main_v0 : S10240x256.Idx → EReal)
      = pad S10240x256 ![0, 0] ![240, 0] ![0, 0] (m ((c : Thread nD τ).loc main_arg1))
          (sitofp (F := Ideal) .f32 (constantI S_ 32 0#32)) pads_S10000x256_S10240x256_02400_000 h_S_ := by
  dsimp only [V, V0]
  simp only [hostOps0, hostOps0_1, List.flatten_cons, List.flatten_nil, List.append_nil, List.cons_append, List.nil_append]
  after_results
  rfl

/-- Row k < 10000 of the padded array is row k of the second argument. -/
theorem padded_row (c : Dev nD) (k : Fin 10000) (d : Fin 256) :
    V m c main_v0 (ix2 (⟨k.val, by omega⟩ : Fin 10240) d) = m ((c : Thread nD τ).loc main_arg1) (ix2 k d) := by
  rw [padded_eq]
  exact pad_apply_of_inside ![0, 0] ![240, 0] ![0, 0] _ _ pads_S10000x256_S10240x256_02400_000 h_S_
    (ix2 (⟨k.val, by omega⟩ : Fin 10240) d) (ix2 k d) (fun a => by
      match a with
      | ⟨0, _⟩ => show k.val = 0 + k.val * (0 + 1); omega
      | ⟨1, _⟩ => show d.val = 0 + d.val * (0 + 1); omega)

/-- What the line after the region leaves in the result: `arrK` of the two arguments. -/
theorem result_eq (c : Dev nD) :
    Pipeline.afterTail₀ cfgs (dats m) 0 (V0 m) [hostOps1] c main_v2
      = arrK (m ((c : Thread nD τ).loc main_arg0)) (m ((c : Thread nD τ).loc main_arg1)) := by
  unfold Pipeline.afterTail₀
  show StableHlo.after hostOps1 _ (Proc.devRef .tc main_v2) = _
  after_results
  rw [(Pipeline.withArrays_arr spec0 launch0.win.arr_inj c _ _ 2).trans (final m c)]
  funext i
  obtain ⟨n, k, rfl⟩ : ∃ (n : Fin 16384) (k : Fin 10000), i = ix2 n k := ⟨i 0, i 1, eq_ix2 i⟩
  refine (extractStridedSlice_apply ![0, 0] _ slices_S16384x10240_S16384x10000_0_0 (ix2 n k)
    (ix2 n (⟨k.val, by omega⟩ : Fin 10240)) (fun a => by
      match a with
      | ⟨0, _⟩ => show n.val = 0 + n.val; omega
      | ⟨1, _⟩ => show k.val = 0 + k.val; omega)).trans ?_
  unfold Gpad arrK
  refine congrArg₂ cosK (funext fun d => ?_) (funext fun d => ?_)
  · exact congrFun (V_main_arg0 m c) (ix2 n d)
  · exact padded_row m c k d

/-- The kernel program's run, with its result named: every weakly fair execution terminates with the result at
    `arrK` of the arguments and the arguments unchanged. -/
theorem run : θ_run defs (onTc (τ := τ) (main (F := Ideal))) ⟨m, fun _ => 0, ρ⟩ fun r => ∀ c : Dev nD,
      r.2.mem ((c.tc : Thread nD τ).loc main_v2) = arrK (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.ResultCosine

end
-- ==== Proof.RefCosine.lean ====
/-
  The reference's result, read at an index: entry (n, c) of its output is the cosine, in the reference's arrangement
  (`Cert.Cosine.cosR`), of row n of the first argument and row c of the second. The contraction runs over the
  second axis of both arguments (the second argument is transposed first, so the product's right index (k, c) reads
  entry (c, k)); each norm is the clamped square root of a row's sum of squares, broadcast along the other axis.
-/
import proofs.«140637_j56495999812266_1_alg».proof.Proof.Gen.ReferenceIdeal.Read
import proofs.«140637_j56495999812266_1_alg».proof.Proof.CosineLaw

noncomputable section

namespace Cert.ReferenceIdeal.RefCosine

open Cert.ReferenceIdeal Cert.ReferenceIdeal.Gen Cert.ReferenceIdeal.Read
open Idealize.ShloMosaic Idealize.ShloMosaic.ValueIdx Cert.Cosine
open scoped BigOperators

/-- The product's left operand index at output (n, c) and contraction coordinate k is (n, k). -/
theorem lidx_eq (n : Fin 16384) (c : Fin 10000) (k : Fin 256) : lidx_main_v1 (ix2 n c) k = ix2 n k :=
  funext fun a => Fin.ext (by match a with | ⟨0, _⟩ => rfl | ⟨1, _⟩ => rfl)

/-- Its right operand index, through the transpose, is entry (c, k) of the second argument. -/
theorem ridx_eq (n : Fin 16384) (c : Fin 10000) (k : Fin 256) : idx_main_v0 (ridx_main_v1 (ix2 n c) k) = ix2 c k :=
  funext fun a => Fin.ext (by match a with | ⟨0, _⟩ => rfl | ⟨1, _⟩ => rfl)

/-- The first norm at output (n, c) sums row n. -/
theorem xrow_eq (n : Fin 16384) (c : Fin 10000) (k : Fin 256) :
    idx_main_call0_v1 (idx_main_v8 (idx_main_v10 (ix2 n c))) k = ix2 n k :=
  funext fun a => Fin.ext (by match a with | ⟨0, _⟩ => rfl | ⟨1, _⟩ => rfl)

/-- The second norm at output (n, c) sums row c. -/
theorem prow_eq (n : Fin 16384) (c : Fin 10000) (k : Fin 256) :
    idx_main_call1_v1 (idx_main_v9 (idx_main_v11 (ix2 n c))) k = ix2 c k :=
  funext fun a => Fin.ext (by match a with | ⟨0, _⟩ => rfl | ⟨1, _⟩ => rfl)

/-- Entry (n, c) of the reference's result is `cosR` of row n of the first argument and row c of the second. -/
theorem result_apply (X : (⟨S16384x256, .f32⟩ : BufTy).Contents (Elt Ideal)) (P : (⟨S10000x256, .f32⟩ : BufTy).Contents (Elt Ideal))
    (n : Fin 16384) (c : Fin 10000) :
    val_main_v13 (F := Ideal) X P (ix2 n c) = cosR (fun d => X (ix2 n d)) (fun d => P (ix2 c d)) := by
  rw [val_main_v13_apply, val_main_v1_apply, val_main_v12_apply, val_main_v10_apply, val_main_v8_apply, val_main_v4_apply,
    val_main_v2_apply, val_main_call0_v1_apply, val_main_v3_apply, val_main_cst_apply, val_main_v11_apply, val_main_v9_apply,
    val_main_v7_apply, val_main_v5_apply, val_main_call1_v1_apply, val_main_v6_apply, val_main_cst_0_apply]
  simp only [val_main_v0_apply, val_main_call0_v0_apply, val_main_call1_v0_apply, val_main_call0_cst_apply, val_main_call1_cst_apply,
    lidx_eq, ridx_eq, xrow_eq, prow_eq, Ideal.hostDivf_def, Ideal.mulf_def, Ideal.maximumf_def, Ideal.hostUnary_sqrt_def,
    Ideal.ofBits_def, Ideal.ofBits_zero_f32, zero_add]
  rfl

end Cert.ReferenceIdeal.RefCosine

end
-- ==== Proof.RefArray.lean ====
/-
  The reference's whole result is the array of cosines in the reference's arrangement: `arrR` of its two arguments
  (entry by entry, `Cert.ReferenceIdeal.RefCosine.result_apply`).
-/
import proofs.«140637_j56495999812266_1_alg».proof.Proof.RefCosine
import proofs.«140637_j56495999812266_1_alg».proof.Proof.CosineArrays

noncomputable section

namespace Cert.ReferenceIdeal.RefArray

open Cert.ReferenceIdeal Cert.ReferenceIdeal.Gen Cert.ReferenceIdeal.Read Cert.ReferenceIdeal.RefCosine
open Idealize.ShloMosaic Idealize.ShloMosaic.ValueIdx Cert.Cosine

theorem result_eq (X : (⟨S16384x256, .f32⟩ : BufTy).Contents (Elt Ideal)) (P : (⟨S10000x256, .f32⟩ : BufTy).Contents (Elt Ideal)) :
    val_main_v13 (F := Ideal) X P = arrR X P := by
  funext i
  obtain ⟨n, c, rfl⟩ : ∃ (n : Fin 16384) (c : Fin 10000), i = ix2 n c := ⟨i 0, i 1, eq_ix2 i⟩
  exact result_apply X P n c

end Cert.ReferenceIdeal.RefArray

end
-- ==== Proof.lean ====
/-
  Cosine similarity of every row of x [16384, 256] against every prototype row [10000, 256]: the kernel against its
  reference, over the extended reals.

  Write nrm v = max (√(∑ d, v d²)) ε for a row v of length 256, ε the value of the binary32 word 0x358637BD (the
  same clamp in both programs). The kernel pads the prototypes with 240 zero rows, tiles the [16384, 10240] output in
  16 × 8 blocks of 1024 × 1280, and in each block normalises the prototype rows first:
      out (n, c) = (∑ d, x (n, d) · (p (c, d) / nrm p_c)) / nrm x_n ,
  then keeps the leading 10000 columns, which only ever read the prototypes' own rows. The reference contracts the raw
  rows and divides once:
      ref (n, c) = (∑ d, x (n, d) · p (c, d)) / (nrm x_n · nrm p_c) .
  A change of float format is the identity on the extended reals, and a product into a zero accumulator, a lane
  reduction and the host's sum are all plain sums, so the two differ only by where the factor 1 / nrm p_c stands.
  Moving it across the sum is distributivity, which fails at the infinities; the precondition makes every entry a real
  number, both norms are then reals ≥ ε > 0, and the identity holds in ℝ (Proof/CosineLaw.lean).

  Modules: CosineLaw (the two arrangements and the law), CosineArrays (the same for whole arrays), FiniteEntries (the
  precondition read back), KernelCosine (the body's value at an index), ArrayCosine (the blocks tile the output),
  ResultCosine (the padding before and the corner after the region; the kernel's run with its result named),
  RefCosine and RefArray (the reference's result at an index and whole). The three frames: the two kernels' are the
  generated ones; the reference has no kernel, and its frame is its run with the result dropped. No operation was
  rewritten when the kernel was idealized, so there is nothing to preserve.
-/
import proofs.«140637_j56495999812266_1_alg».proof.Defs
import proofs.«140637_j56495999812266_1_alg».proof.Proof.Gen.Kernel
import proofs.«140637_j56495999812266_1_alg».proof.Proof.Gen.Kernel.Skeleton
import proofs.«140637_j56495999812266_1_alg».proof.Proof.Gen.Kernel.Launch
import proofs.«140637_j56495999812266_1_alg».proof.Proof.Gen.Kernel.Points
import proofs.«140637_j56495999812266_1_alg».proof.Proof.Gen.Kernel.Frame
import proofs.«140637_j56495999812266_1_alg».proof.Proof.Gen.KernelIdeal
import proofs.«140637_j56495999812266_1_alg».proof.Proof.Gen.KernelIdeal.Skeleton
import proofs.«140637_j56495999812266_1_alg».proof.Proof.Gen.KernelIdeal.Launch
import proofs.«140637_j56495999812266_1_alg».proof.Proof.Gen.KernelIdeal.Points
import proofs.«140637_j56495999812266_1_alg».proof.Proof.Gen.KernelIdeal.Frame
import proofs.«140637_j56495999812266_1_alg».proof.Proof.Gen.ReferenceIdeal
import proofs.«140637_j56495999812266_1_alg».proof.Proof.Gen.Pre_finite_inputs
import proofs.«140637_j56495999812266_1_alg».proof.Proof.Gen.ReferenceIdeal.Run
import proofs.«140637_j56495999812266_1_alg».proof.Proof.Gen.ReferenceIdeal.Read
import proofs.«140637_j56495999812266_1_alg».proof.Proof.FiniteEntries
import proofs.«140637_j56495999812266_1_alg».proof.Proof.ResultCosine
import proofs.«140637_j56495999812266_1_alg».proof.Proof.RefArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten, so nothing is to be preserved. -/
theorem preserves : Cert.preserves_Kernel_KernelIdeal := trivial

/-- Both programs end at the array of cosines of the kernel's arguments: the kernel in its own arrangement, the
    reference in the other, equal because the precondition makes every entry a real number. -/
theorem algebraic : Cert.algebraic_KernelIdeal_ReferenceIdeal := by
  intro m ρ m' ρ' hpre hagree
  refine ⟨fun c => Cert.Cosine.arrK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ResultCosine.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hP⟩ := Cert.Pre_finite_inputs.FiniteEntries.real_of_pre _ _ (hpre c)
  rw [(hagree c).1, (hagree c).2]
  exact ((Cert.ReferenceIdeal.Read.val_main_v13_eq _ _).trans (Cert.ReferenceIdeal.RefArray.result_eq _ _)).trans
    (Cert.Cosine.arrK_eq_arrR _ _ hX hP).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
